-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1x1024 : Shape := ⟨3, ![32, 1, 1024]⟩
abbrev S32x1024x1 : Shape := ⟨3, ![32, 1024, 1]⟩
abbrev S512x1024 : Shape := ⟨2, ![512, 1024]⟩
abbrev S512 : Shape := ⟨1, ![512]⟩
abbrev S1024x512 : Shape := ⟨2, ![1024, 512]⟩
abbrev S1024 : Shape := ⟨1, ![1024]⟩
abbrev S_ : Shape := ⟨0, ![]⟩

class Facts : Prop where
  bcast_S_S32x1x1024 : S_.BroadcastsInDim S32x1x1024 (![] : Fin 0 → Fin S32x1x1024.rank)
  reducesTo_S32x1x1024_S_d0_1_2 : S32x1x1024.ReducesTo [0, 1, 2] S_
  h_S_ : 0 < S_.numel
  bcast_S_S32x1024x1 : S_.BroadcastsInDim S32x1024x1 (![] : Fin 0 → Fin S32x1024x1.rank)
  reducesTo_S32x1024x1_S_d0_1_2 : S32x1024x1.ReducesTo [0, 1, 2] S_
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024x512 .f32) (main_arg5 : FVec F S1024 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S1024x512 .f32 := Host.absf main_arg4
  let main_cst_6 : FVec F S_ .f32 := constant S_ .f32 0x7F800000#32
  let main_v20 : FVec F S1024x512 .f32 := broadcastInDim S1024x512 ![] bcast_S_S1024x512 main_cst_6
  let main_v21 : IVec S1024x512 1 := cmpf .olt main_v19 main_v20
  let main_c_7 : IVec S_ 1 := constantI S_ 1 1#1
  let main_v22 : IVec S_ 1 := (fun x v => Host.reduce IntOp.andi x v reducesTo_S1024x512_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S32x1x1024 .f32) (main_arg1 : FVec F S32x1024x1 .f32) (main_arg2 : FVec F S512x1024 .f32) (main_arg3 : FVec F S512 .f32) (main_arg4 : FVec F S1024x512 .f32) (main_arg5 : FVec F S1024 .f32) : IVec S_ 1 :=
  let main_v0 : FVec F S32x1x1024 .f32 := Host.absf main_arg0
  let main_cst : FVec F S_ .f32 := constant S_ .f32 0x7F800000#32
  let main_v1 : FVec F S32x1x1024 .f32 := broadcastInDim S32x1x1024 ![] bcast_S_S32x1x1024 main_cst
  let main_v2 : IVec S32x1x1024 1 := cmpf .olt main_v0 main_v1
  let main_c : IVec S_ 1 := constantI S_ 1 1#1
  let main_v3 : IVec S_ 1 := (fun x v => Host.reduce IntOp.andi x v reducesTo_S32x1x1024_S_d0_1_2 h_S_) main_v2 main_c
  let main_v4 : FVec F S32x1024x1 .f32 := Host.absf main_arg1
  let main_cst_0 : FVec F S_ .f32 := constant S_ .f32 0x7F800000#32
  let main_v5 : FVec F S32x1024x1 .f32 := broadcastInDim S32x1024x1 ![] bcast_S_S32x1024x1 main_cst_0
  let main_v6 : IVec S32x1024x1 1 := cmpf .olt main_v4 main_v5
  let main_c_1 : IVec S_ 1 := constantI S_ 1 1#1
  let main_v7 : IVec S_ 1 := (fun x v => Host.reduce IntOp.andi x v reducesTo_S32x1024x1_S_d0_1_2 h_S_) main_v6 main_c_1
  let main_v8 : IVec S_ 1 := andi main_v3 main_v7
  let main_v9 : FVec F S512x1024 .f32 := Host.absf main_arg2
  let main_cst_2 : FVec F S_ .f32 := constant S_ .f32 0x7F800000#32
  let main_v10 : FVec F S512x1024 .f32 := broadcastInDim S512x1024 ![] bcast_S_S512x1024 main_cst_2
  let main_v11 : IVec S512x1024 1 := cmpf .olt main_v9 main_v10
  let main_c_3 : IVec S_ 1 := constantI S_ 1 1#1
  let main_v12 : IVec S_ 1 := (fun x v => Host.reduce IntOp.andi x v reducesTo_S512x1024_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_v13 main_v16
-- ==== Kernel.lean ====
abbrev S32x1x1024 : Shape := ⟨3, ![32, 1, 1024]⟩
abbrev S32x1024x1 : Shape := ⟨3, ![32, 1024, 1]⟩
abbrev S512x1024 : Shape := ⟨2, ![512, 1024]⟩
abbrev S512 : Shape := ⟨1, ![512]⟩
abbrev S1024x512 : Shape := ⟨2, ![1024, 512]⟩
abbrev S1024 : Shape := ⟨1, ![1024]⟩
abbrev S32x1024x1024 : Shape := ⟨3, ![32, 1024, 1024]⟩
abbrev S1x1x1024 : Shape := ⟨3, ![1, 1, 1024]⟩
abbrev S1x1024x1024 : Shape := ⟨3, ![1, 1024, 1024]⟩
abbrev S1x1024 : Shape := ⟨2, ![1, 1024]⟩
abbrev S1024x1024 : Shape := ⟨2, ![1024, 1024]⟩
abbrev S1x512 : Shape := ⟨2, ![1, 512]⟩

abbrev nBuf : Space → Nat
  | .hbm => 7
  | .vmem => 8
  | .smem => 0
  | _ => 0

abbrev bufTy : (tb : Table) → Fin (tcTables nBuf tb) → BufTy
  | .hbm, ⟨0, _⟩ => ⟨S32x1x1024, .f32⟩
  | .hbm, ⟨1, _⟩ => ⟨S32x1024x1, .f32⟩
  | .hbm, ⟨2, _⟩ => ⟨S512x1024, .f32⟩
  | .hbm, ⟨3, _⟩ => ⟨S512, .f32⟩
  | .hbm, ⟨4, _⟩ => ⟨S1024x512, .f32⟩
  | .hbm, ⟨5, _⟩ => ⟨S1024, .f32⟩
  | .hbm, ⟨6, _⟩ => ⟨S32x1024x1024, .f32⟩
  | .local _ .vmem, ⟨0, _⟩ => ⟨S1x1x1024, .f32⟩
  | .local _ .vmem, ⟨1, _⟩ => ⟨S1x1x1024, .f32⟩
  | .local _ .vmem, ⟨2, _⟩ => ⟨S512x1024, .f32⟩
  | .local _ .vmem, ⟨3, _⟩ => ⟨S512, .f32⟩
  | .local _ .vmem, ⟨4, _⟩ => ⟨S1024x512, .f32⟩
  | .local _ .vmem, ⟨5, _⟩ => ⟨S1024, .f32⟩
  | .local _ .vmem, ⟨6, _⟩ => ⟨S1x1024x1024, .f32⟩
  | .local _ .vmem, ⟨7, _⟩ => ⟨S1x1024x1024, .f32⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1024 : S1x1x1024.ShapeCasts S1024
  bitsLt_bf16_f32 : FTy.bits .bf16 < FTy.bits .f32
  shapeCasts_S1024_S1x1024 : S1024.ShapeCasts S1x1024
  shapeCasts_S1x1024_S1x1024 : S1x1024.ShapeCasts S1x1024
  broadcasts_S1x1024_S1024x1024 : S1x1024.Broadcasts S1024x1024
  inb_S512x1024_S512x1024_0_0 : ∀ a, (![0, 0] : Fin 2 → Nat) a + S512x1024.size a ≤ S512x1024.size a
  h_S512x1024 : 0 < S512x1024.numel
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  inb_S1024_S1024_0 : ∀ a, (![0] : Fin 1 → Nat) a + S1024.size a ≤ S1024.size a
  h_S1024 : 0 < S1024.numel
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  dot_S1024x1024_S512x1024_S1024x512_1_1_0_0_n_n_wf : DotDims.WF S1024x1024 S512x1024 S1024x512 [1] [1] [0] [0] [] []
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024.size a ≤ S32x1x1024.size a
  hwx0_0 : ∀ i : grid0.Coords, EltTy.bits .f32 = 32 ∨ (Rect.block (s := S32x1x1024) S1x1x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .f32 = 32 ∨ (Rect.block (s := S512x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S1024x512.size a
  hwx0_3 : ∀ i : grid0.Coords, EltTy.bits .f32 = 32 ∨ (Rect.block (s := S1024x512) S1024x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x1024.size a ≤ S32x1024x1024.size a
  hwx0_5 : ∀ i : grid0.Coords, EltTy.bits .f32 = 32 ∨ (Rect.block (s := S32x1024x1024) S1x1024x1024.size (cc0_transform_5 i) (hinb0_5 i)).WholeWords (EltTy.packing .f32)

variable [Facts₀]

def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf
def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_arg0) S1x1x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1024x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x1x1024 : Shape := ⟨3, ![32, 1, 1024]⟩
abbrev S32x1024x1 : Shape := ⟨3, ![32, 1024, 1]⟩
abbrev S512x1024 : Shape := ⟨2, ![512, 1024]⟩
abbrev S512 : Shape := ⟨1, ![512]⟩
abbrev S1024x512 : Shape := ⟨2, ![1024, 512]⟩
abbrev S1024 : Shape := ⟨1, ![1024]⟩
abbrev S_ : Shape := ⟨0, ![]⟩
abbrev S32x1024x1024 : Shape := ⟨3, ![32, 1024, 1024]⟩
abbrev S32x1024x512 : Shape := ⟨3, ![32, 1024, 512]⟩
abbrev S1x1x512 : Shape := ⟨3, ![1, 1, 512]⟩
abbrev S1x1x1024 : Shape := ⟨3, ![1, 1, 1024]⟩

abbrev nBuf : Space → Nat
  | .hbm => 20
  | .vmem => 0
  | .smem => 0
  | _ => 0

abbrev bufTy : (tb : Table) → Fin (tcTables nBuf tb) → BufTy
  | .hbm, ⟨0, _⟩ => ⟨S32x1x1024, .f32⟩
  | .hbm, ⟨1, _⟩ => ⟨S32x1024x1, .f32⟩
  | .hbm, ⟨2, _⟩ => ⟨S512x1024, .f32⟩
  | .hbm, ⟨3, _⟩ => ⟨S512, .f32⟩
  | .hbm, ⟨4, _⟩ => ⟨S1024x512, .f32⟩
  | .hbm, ⟨5, _⟩ => ⟨S1024, .f32⟩
  | .hbm, ⟨6, _⟩ => ⟨S_, .f32⟩
  | .hbm, ⟨7, _⟩ => ⟨S32x1024x1, .f32⟩
  | .hbm, ⟨8, _⟩ => ⟨S32x1024x1024, .f32⟩
  | .hbm, ⟨9, _⟩ => ⟨S32x1024x512, .f32⟩
  | .hbm, ⟨10, _⟩ => ⟨S1x1x512, .f32⟩
  | .hbm, ⟨11, _⟩ => ⟨S32x1024x512, .f32⟩
  | .hbm, ⟨12, _⟩ => ⟨S32x1024x512, .f32⟩
  | .hbm, ⟨13, _⟩ => ⟨S_, .f32⟩
  | .hbm, ⟨14, _⟩ => ⟨S32x1024x512, .f32⟩
  | .hbm, ⟨15, _⟩ => ⟨S32x1024x512, .f32⟩
  | .hbm, ⟨16, _⟩ => ⟨S32x1024x1024, .f32⟩
  | .hbm, ⟨17, _⟩ => ⟨S1x1x1024, .f32⟩
  | .hbm, ⟨18, _⟩ => ⟨S32x1024x1024, .f32⟩
  | .hbm, ⟨19, _⟩ => ⟨S32x1024x1024, .f32⟩
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_cst : Ref sig .tc := ⟨.hbm, 13, rfl⟩
abbrev main_call0_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩

abbrev nD : Nat := 1
abbrev τ : Topo := Topo.v7x

variable {F : FTy → Type} [FloatOps F]

class Facts₀ : Prop where
  bcast_S_S32x1024x1 : S_.BroadcastsInDim S32x1024x1 (![] : Fin 0 → Fin S32x1024x1.rank)
  bcast_S512_S1x1x512_2 : S512.BroadcastsInDim S1x1x512 (![2] : Fin 1 → Fin S1x1x512.rank)
  bcast_S1x1x512_S32x1024x512_0_1_2 : S1x1x512.BroadcastsInDim S32x1024x512 (![0, 1, 2] : Fin 3 → Fin S32x1024x512.rank)
  bcast_S_S32x1024x512 : S_.BroadcastsInDim S32x1024x512 (![] : Fin 0 → Fin S32x1024x512.rank)
  bcast_S1024_S1x1x1024_2 : S1024.BroadcastsInDim S1x1x1024 (![2] : Fin 1 → Fin S1x1x1024.rank)
  bcast_S1x1x1024_S32x1024x1024_0_1_2 : S1x1x1024.BroadcastsInDim S32x1024x1024 (![0, 1, 2] : Fin 3 → Fin S32x1024x1024.rank)
  dot_S32x1024x1_S32x1x1024_S32x1024x1024_2_1_1_2_0_0_wf : DotDims.WF S32x1024x1 S32x1x1024 S32x1024x1024 [2] [1] [1] [2] [0] [0]
  dot_S32x1024x1024_S512x1024_S32x1024x512_2_1_01_0_n_n_wf : DotDims.WF S32x1024x1024 S512x1024 S32x1024x512 [2] [1] [0, 1] [0] [] []
  dot_S32x1024x512_S1024x512_S32x1024x1024_2_1_01_0_n_n_wf : DotDims.WF S32x1024x512 S1024x512 S32x1024x1024 [2] [1] [0, 1] [0] [] []

variable [Facts₀]

def dot_S32x1024x1_S32x1x1024_S32x1024x1024_2_1_1_2_0_0 : DotDims S32x1024x1 S32x1x1024 S32x1024x1024 where
  lhsContracting := [2]
  rhsContracting := [1]
  lhsNonContracting := [1]
  rhsNonContracting := [2]
  lhsBatch := [0]
  rhsBatch := [0]
  wf := dot_S32x1024x1_S32x1x1024_S32x1024x1024_2_1_1_2_0_0_wf
def dot_S32x1024x1024_S512x1024_S32x1024x512_2_1_01_0_n_n : DotDims S32x1024x1024 S512x1024 S32x1024x512 where
  lhsContracting := [2]
  rhsContracting := [1]
  lhsNonContracting := [0, 1]
  rhsNonContracting := [0]
  lhsBatch := []
  rhsBatch := []
  wf := dot_S32x1024x1024_S512x1024_S32x1024x512_2_1_01_0_n_n_wf
def dot_S32x1024x512_S1024x512_S32x1024x1024_2_1_01_0_n_n : DotDims S32x1024x512 S1024x512 S32x1024x1024 where
  lhsContracting := [2]
  rhsContracting := [1]
  lhsNonContracting := [0, 1]
  rhsNonContracting := [0]
  lhsBatch := []
  rhsBatch := []
  wf := dot_S32x1024x512_S1024x512_S32x1024x1024_2_1_01_0_n_n_wf

class Facts : Prop extends Facts₀ where

variable [Facts]
-- ==== Proof.LibMatmulTransposedRhs.lean ====
/-
  A matrix product A · Bᵀ — a left operand [M, K] against a right operand stored [N, K], both contracted on their last
  axis, no batch axes (`DotDims.transposedRhs M K N`) — into the zero accumulator, read at an entry over the extended
  reals: entry (r, c) is the sum over k of a (r, k) · b (c, k). The left operand is read at the output's row and the
  contraction coordinate, the right one at the output's COLUMN and the contraction coordinate. Stated at any extents,
  with every index written by its coordinates.
-/
import Idealize.ShloMosaic.Lib.ValueIdx
import Idealize.ShloMosaic.PureOps.Ideal.Laws

noncomputable section

namespace Cert.MatmulTransposedRhs

open Idealize.ShloMosaic Idealize.ShloMosaic.ValueIdx

variable {M K N : ℕ}

/-- The left operand's first coordinate is the output's row: its axis 0 is the one kept axis of the left side, and
    the kept left axes come first among the output's. -/
theorem lhs_row (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from
      List.mem_singleton.mpr rfl)]
  rfl

/-- The left operand's second coordinate is the contraction coordinate. -/
theorem lhs_col (j : (⟨2, ![M, N]⟩ : Shape).Idx) (q : (DotDims.transposedRhs M K N).contr.Idx) :
    ((DotDims.transposedRhs M K N).lhsIdx j q 1).val = (q ⟨0, Nat.one_pos⟩).val :=
  (DotDims.transposedRhs M K N).lhsIdx_val_of_single rfl j q

/-- The right operand's first coordinate is the output's COLUMN: its axis 0 is the one kept axis of the right side,
    which comes after the left side's kept axis among the output's. -/
theorem rhs_row (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from
      List.mem_singleton.mpr rfl)]
  rfl

/-- The right operand's second coordinate is the contraction coordinate. -/
theorem rhs_col (j : (⟨2, ![M, N]⟩ : Shape).Idx) (q : (DotDims.transposedRhs M K N).contr.Idx) :
    ((DotDims.transposedRhs M K N).rhsIdx j q 1).val = (q ⟨0, Nat.one_pos⟩).val :=
  (DotDims.transposedRhs M K N).rhsIdx_val_of_single rfl j q

/-- Entry (r, c) of A · Bᵀ into the zero accumulator is the sum over k of a (r, k) · b (c, k). -/
theorem apply (prec : Option ContractPrecision) {φ₁ φ₂ : FTy} (a : FVec Ideal ⟨2, ![M, K]⟩ φ₁) (b : FVec Ideal ⟨2, ![N, K]⟩ φ₂)
    (r : Fin M) (c : Fin N) :
    FloatOps.matmul (DotDims.transposedRhs M K N) prec a b (constant ⟨2, ![M, N]⟩ .f32 0x00000000#32) (ix2 r c)
      = ∑ k : Fin K, a (ix2 r k) * b (ix2 c k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 r c) ((contrEquiv1 (DotDims.transposedRhs M K N) K rfl rfl).symm k)
      = ix2 r k :=
    funext fun x => Fin.ext (by
      match x with
      | ⟨0, _⟩ => exact lhs_row _ _
      | ⟨1, _⟩ => exact (lhs_col _ _).trans hk)
  have er : (DotDims.transposedRhs M K N).rhsIdx (ix2 r c) ((contrEquiv1 (DotDims.transposedRhs M K N) K rfl rfl).symm k)
      = ix2 c k :=
    funext fun x => Fin.ext (by
      match x with
      | ⟨0, _⟩ => exact rhs_row _ _
      | ⟨1, _⟩ => exact (rhs_col _ _).trans hk)
  rw [el, er]

end Cert.MatmulTransposedRhs

end
-- ==== Proof.MlpSpec.lean ====
/-
  A two-layer perceptron applied to one representation vector per batch item, as ONE function of its argument arrays
  over the extended reals.

  For batch item b the input row is rep[b, 0, ·] (1024 numbers) — the same row at every one of the 1024 positions s,
  so the result does not depend on s. Hidden unit h is the rectified affine form

      hidden b h = max (Σ_r rep[b, 0, r] · W1[h, r] + b1[h]) 0          (r over 1024, h over 512)

  and output entry (b, s, o) is

      mlp (b, s, o) = Σ_h hidden b h · W2[o, h] + b2[o]                  (o over 1024).

  Both weight matrices are stored with the contracted axis LAST (W1 is [512, 1024], W2 is [1024, 512]), so each layer is
  a product with the weight matrix's transpose.
-/
import Idealize.ShloMosaic.Lib.ValueIdx
import Idealize.ShloMosaic.PureOps.Ideal

noncomputable section

namespace Cert.DenseMlp

open Idealize.ShloMosaic Idealize.ShloMosaic.ValueIdx

/-- Hidden unit `h` of batch item `b`: the input row against row `h` of the first weight matrix, plus that unit's
    bias, rectified at zero. -/
def hidden (rep : (⟨3, ![32, 1, 1024]⟩ : Shape).Idx → EReal) (W1 : (⟨2, ![512, 1024]⟩ : Shape).Idx → EReal)
    (b1 : (⟨1, ![512]⟩ : Shape).Idx → EReal) (b : Fin 32) (h : Fin 512) : EReal :=
  max ((∑ r : Fin 1024, rep (ix3 b (0 : Fin 1) r) * W1 (ix2 h r)) + b1 (ix1 h)) 0

/-- Output entry `o` of batch item `b` (the same at every position): the hidden units against row `o` of the second
    weight matrix, plus that entry's bias. -/
def out (rep : (⟨3, ![32, 1, 1024]⟩ : Shape).Idx → EReal) (W1 : (⟨2, ![512, 1024]⟩ : Shape).Idx → EReal)
    (b1 : (⟨1, ![512]⟩ : Shape).Idx → EReal) (W2 : (⟨2, ![1024, 512]⟩ : Shape).Idx → EReal)
    (b2 : (⟨1, ![1024]⟩ : Shape).Idx → EReal) (b : Fin 32) (o : Fin 1024) : EReal :=
  (∑ h : Fin 512, hidden rep W1 b1 b h * W2 (ix2 o h)) + b2 (ix1 o)

/-- The whole result array [32, 1024, 1024]: entry (b, s, o) is `out b o`, whatever the position `s`. -/
def mlp (rep : (⟨3, ![32, 1, 1024]⟩ : Shape).Idx → EReal) (W1 : (⟨2, ![512, 1024]⟩ : Shape).Idx → EReal)
    (b1 : (⟨1, ![512]⟩ : Shape).Idx → EReal) (W2 : (⟨2, ![1024, 512]⟩ : Shape).Idx → EReal)
    (b2 : (⟨1, ![1024]⟩ : Shape).Idx → EReal) : (⟨3, ![32, 1024, 1024]⟩ : Shape).Idx → EReal :=
  fun i => out rep W1 b1 W2 b2 ⟨(i 0).val, (i 0).isLt⟩ ⟨(i 2).val, (i 2).isLt⟩

/-- At an index written by its coordinates. -/
theorem mlp_ix3 (rep : (⟨3, ![32, 1, 1024]⟩ : Shape).Idx → EReal) (W1 : (⟨2, ![512, 1024]⟩ : Shape).Idx → EReal)
    (b1 : (⟨1, ![512]⟩ : Shape).Idx → EReal) (W2 : (⟨2, ![1024, 512]⟩ : Shape).Idx → EReal)
    (b2 : (⟨1, ![1024]⟩ : Shape).Idx → EReal) (b : Fin 32) (s o : Fin 1024) :
    mlp rep W1 b1 W2 b2 (ix3 b s o) = out rep W1 b1 W2 b2 b o := rfl

end Cert.DenseMlp

end
-- ==== Proof.MlpBody.lean ====
/-
  What one grid point's body computes, read at an entry.

  The body loads one input row x0 [1, 1, 1024], both weight matrices x1 [512, 1024] and x3 [1024, 512] and both bias
  vectors x2 [512], x4 [1024], and stores a [1, 1024, 1024] slab. It copies the row to all 1024 positions, multiplies
  by x1 transposed, adds x2, rectifies at zero, multiplies by x3 transposed and adds x4. Over the extended reals the
  changes of float format are the identity and each product into the zero accumulator is a plain sum, so entry
  (u, s, o) of the slab is

      Σ_h max (Σ_r x0[0, 0, r] · x1[h, r] + x2[h]) 0 · x3[o, h] + x4[o]

  — independent of the position s, because every position carries the same row.
-/
import proofs.«169197_j14894946583396_1_alg».proof.Proof.Gen.KernelIdeal.Skeleton
import proofs.«169197_j14894946583396_1_alg».proof.Proof.LibMatmulTransposedRhs
import proofs.«169197_j14894946583396_1_alg».proof.Proof.MlpSpec
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx

/-- A [1, 1, a] array cast to [a] reads, at i, the operand at (0, 0, i): both have row-major position i. -/
theorem shapeCast_11a_a_apply {α : Type} {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    omega)

/-- The first layer's product — 1024 positions by 1024 inputs against 512 hidden units by 1024 inputs — read at
    (position s, hidden unit h): the sum over the inputs r of a (s, r) · b (h, r). Its dimension numbers are those of a
    product with the right operand's transpose. -/
theorem layer1_apply (a : FVec Ideal S1024x1024 .bf16) (b : FVec Ideal S512x1024 .bf16) (s : Fin 1024) (h : Fin 512) :
    matmul dot_S1024x1024_S512x1024_S1024x512_1_1_0_0_n_n none a b (constant S1024x512 .f32 0x00000000#32) (ix2 s h)
      = ∑ r : Fin 1024, a (ix2 s r) * b (ix2 h r) :=
  Cert.MatmulTransposedRhs.apply (M := 1024) (K := 1024) (N := 512) none a b s h

/-- The second layer's product — 1024 positions by 512 hidden units against 1024 outputs by 512 hidden units — read at
    (position s, output o): the sum over the hidden units h of a (s, h) · b (o, h). -/
theorem layer2_apply (a : FVec Ideal S1024x512 .bf16) (b : FVec Ideal S1024x512 .bf16) (s o : Fin 1024) :
    matmul dot_S1024x512_S1024x512_S1024x1024_1_1_0_0_n_n none a b (constant S1024x1024 .f32 0x00000000#32) (ix2 s o)
      = ∑ h : Fin 512, a (ix2 s h) * b (ix2 o h) :=
  Cert.MatmulTransposedRhs.apply (M := 1024) (K := 512) (N := 1024) none a b s o

/-- Entry (u, s, o) of the slab the body stores, from the blocks it loads. -/
theorem pay_apply (x0 : Vec Ideal S1x1x1024 .f32) (x1 : Vec Ideal S512x1024 .f32) (x2 : Vec Ideal S512 .f32)
    (x3 : Vec Ideal S1024x512 .f32) (x4 : Vec Ideal S1024 .f32) (u : Fin 1) (s o : Fin 1024) :
    k0_pay1 (F := Ideal) x0 x1 x2 x3 x4 (ix3 u s o)
      = (∑ h : Fin 512, max ((∑ r : Fin 1024, x0 (ix3 (0 : Fin 1) (0 : Fin 1) r) * x1 (ix2 h r)) + x2 (ix1 h)) 0
            * x3 (ix2 o h)) + x4 (ix1 o) := by
  unfold k0_pay1
  simp only [shapeCast_ab_1ab_apply, addf_apply, broadcastTo_1b_ab_apply, shapeCast_a_1a_apply, layer2_apply, layer1_apply,
    truncf_apply, maximumf_apply, broadcast_apply, shapeCast_self, shapeCast_11a_a_apply, Ideal.ofBits_def,
    Ideal.ofBits_zero_f32]

/-- The slab of batch item `bt`: when the loaded row is row `bt` of the representation and the other four blocks are the
    whole weight and bias arrays, entry (u, s, o) of the stored slab is entry (bt, s, o) of the specification's array. -/
theorem slab_entry (rep : (⟨3, ![32, 1, 1024]⟩ : Shape).Idx → EReal) (W1 : (⟨2, ![512, 1024]⟩ : Shape).Idx → EReal)
    (b1 : (⟨1, ![512]⟩ : Shape).Idx → EReal) (W2 : (⟨2, ![1024, 512]⟩ : Shape).Idx → EReal)
    (b2 : (⟨1, ![1024]⟩ : Shape).Idx → EReal)
    (x0 : Vec Ideal S1x1x1024 .f32) (x1 : Vec Ideal S512x1024 .f32) (x2 : Vec Ideal S512 .f32)
    (x3 : Vec Ideal S1024x512 .f32) (x4 : Vec Ideal S1024 .f32) (bt : Fin 32)
    (h0 : ∀ r : Fin 1024, x0 (ix3 (0 : Fin 1) (0 : Fin 1) r) = rep (ix3 bt (0 : Fin 1) r))
    (h1 : x1 = W1) (h2 : x2 = b1) (h3 : x3 = W2) (h4 : x4 = b2) (u : Fin 1) (s o : Fin 1024) :
    k0_pay1 (F := Ideal) x0 x1 x2 x3 x4 (ix3 u s o) = Cert.DenseMlp.mlp rep W1 b1 W2 b2 (ix3 bt s o) := by
  subst h1 h2 h3 h4
  rw [pay_apply, Cert.DenseMlp.mlp_ix3]
  simp only [Cert.DenseMlp.out, Cert.DenseMlp.hidden, h0]

end Cert.KernelIdeal.Body

end
-- ==== Proof.MlpSlabs.lean ====
/-
  From one slab per grid point to the whole result array.

  The grid has 32 points, one per batch item. At point t the kernel is handed row t of the representation
  ([1, 1, 1024] out of [32, 1, 1024]) and, at every point alike, the two weight matrices and the two bias vectors whole;
  it writes slab t ([1, 1024, 1024] out of [32, 1024, 1024]) of the result. So what point t writes back is slab t of the
  specification's array, the 32 slabs tile the array — index (b, s, o) lies in the slab of point b — and after the run
  the result array is the specification's array of the arguments, which the run leaves unchanged.
-/
import proofs.«169197_j14894946583396_1_alg».proof.Proof.Gen.KernelIdeal.Value
import proofs.«169197_j14894946583396_1_alg».proof.Proof.MlpBody

set_option maxRecDepth 16384

noncomputable section

namespace Cert.KernelIdeal.Slabs

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem off3 : (![0, 0, 0] : Fin 3 → Nat) = fun _ => 0 := funext fun a => by fin_cases a <;> rfl
theorem off2 : (![0, 0] : Fin 2 → Nat) = fun _ => 0 := funext fun a => by fin_cases a <;> rfl
theorem off1 : (![0] : Fin 1 → Nat) = fun _ => 0 := funext fun a => by fin_cases a <;> rfl

/-- Where each window's block sits at grid point t, decided over the 32 points: the representation's row and the
    result's slab move with the point along the batch axis; the weights and biases stay at block index zero. -/
theorem slab_index : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 3) = t.val ∧ win0_5.index t (1 : Fin 3) = 0 ∧ win0_5.index t (2 : Fin 3) = 0 :=
  (by decide +kernel : ∀ t : Fin grid0.N, _)

/-- The specification's array of the argument arrays as the region finds them on core c. -/
abbrev spec (c : Dev nD) : (⟨3, ![32, 1024, 1024]⟩ : Shape).Idx → EReal :=
  Cert.DenseMlp.mlp (V m c main_arg0) (V m c main_arg2) (V m c main_arg3) (V m c main_arg4) (V m c main_arg5)

/-- What point t writes back is slab t of the specification's array. -/
theorem flushed_eq (c : Dev nD) (t : Fin cfg0.N) :
    (dats m 0 c).flushed 5 t = ((cfg0.win 5).blk t).view.read (Elt Ideal) (spec m c) := by
  rw [Value.flushed5]
  unfold out0_5
  rw [View.canon_unit_zero off3]
  simp only [View.ld_unit_zero (S := S1x1x1024) off3, View.ld_unit_zero (S := S512x1024) off2, View.ld_unit_zero (S := S512) off1,
    View.ld_unit_zero (S := S1024x512) off2, View.ld_unit_zero (S := S1024) off1]
  obtain ⟨i00, i01, i02, i10, i11, i20, i30, i31, i40, i50, i51, i52⟩ := slab_index t
  have hbt : t.val < 32 := Nat.lt_of_lt_of_eq t.isLt N_0
  refine funext fun (j : S1x1024x1024.Idx) => ?_
  obtain ⟨u, s, o, rfl⟩ : ∃ (u : Fin 1) (s o : Fin 1024), j = ix3 u s o := ⟨j 0, j 1, j 2, eq_ix3 j⟩
  show k0_pay1 (F := Ideal) (iblk m c 0 t) (iblk m c 1 t) (iblk m c 2 t) (iblk m c 3 t) (iblk m c 4 t) (ix3 u s o)
      = spec m c (((cfg0.win 5).blk t).view.emb (ix3 u s o))
  -- entry (u, s, o) of slab t is entry (t, s, o) of the array
  have hslab : ((cfg0.win 5).blk t).view.emb (ix3 u s o) = ix3 (⟨t.val, hbt⟩ : Fin 32) s o := by
    funext a; apply Fin.ext
    match a with
    | ⟨0, _⟩ => show win0_5.index t (0 : Fin 3) * 1 + 1 * u.val = t.val; have := u.isLt; omega
    | ⟨1, _⟩ => show win0_5.index t (1 : Fin 3) * 1024 + 1 * s.val = s.val; omega
    | ⟨2, _⟩ => show win0_5.index t (2 : Fin 3) * 1024 + 1 * o.val = o.val; omega
  rw [hslab]
  refine Body.slab_entry (V m c main_arg0) (V m c main_arg2) (V m c main_arg3) (V m c main_arg4) (V m c main_arg5)
    (iblk m c 0 t) (iblk m c 1 t) (iblk m c 2 t) (iblk m c 3 t) (iblk m c 4 t) ⟨t.val, hbt⟩ ?_ ?_ ?_ ?_ ?_ u s o
  · -- the loaded row is row t of the representation
    intro r
    show V m c main_arg0 (((cfg0.win 0).blk t).view.emb (ix3 (0 : Fin 1) (0 : Fin 1) r)) = V m c main_arg0 (ix3 (⟨t.val, hbt⟩ : Fin 32) (0 : Fin 1) r)
    refine congrArg _ (funext fun a => Fin.ext ?_)
    match a with
    | ⟨0, _⟩ => show win0_0.index t (0 : Fin 3) * 1 + 1 * 0 = t.val; omega
    | ⟨1, _⟩ => show win0_0.index t (1 : Fin 3) * 1 + 1 * 0 = 0; omega
    | ⟨2, _⟩ => show win0_0.index t (2 : Fin 3) * 1024 + 1 * r.val = r.val; omega
  · -- the first weight matrix whole
    funext y
    show V m c main_arg2 (((cfg0.win 1).blk t).view.emb y) = V m c main_arg2 y
    refine congrArg _ (funext fun a => Fin.ext ?_)
    match a with
    | ⟨0, _⟩ => show win0_1.index t (0 : Fin 2) * 512 + 1 * (y 0).val = (y 0).val; omega
    | ⟨1, _⟩ => show win0_1.index t (1 : Fin 2) * 1024 + 1 * (y 1).val = (y 1).val; omega
  · -- the first bias vector whole
    funext y
    show V m c main_arg3 (((cfg0.win 2).blk t).view.emb y) = V m c main_arg3 y
    refine congrArg _ (funext fun a => Fin.ext ?_)
    match a with
    | ⟨0, _⟩ => show win0_2.index t (0 : Fin 1) * 512 + 1 * (y 0).val = (y 0).val; omega
  · -- the second weight matrix whole
    funext y
    show V m c main_arg4 (((cfg0.win 3).blk t).view.emb y) = V m c main_arg4 y
    refine congrArg _ (funext fun a => Fin.ext ?_)
    match a with
    | ⟨0, _⟩ => show win0_3.index t (0 : Fin 2) * 1024 + 1 * (y 0).val = (y 0).val; omega
    | ⟨1, _⟩ => show win0_3.index t (1 : Fin 2) * 512 + 1 * (y 1).val = (y 1).val; omega
  · -- the second bias vector whole
    funext y
    show V m c main_arg5 (((cfg0.win 4).blk t).view.emb y) = V m c main_arg5 y
    refine congrArg _ (funext fun a => Fin.ext ?_)
    match a with
    | ⟨0, _⟩ => show win0_4.index t (0 : Fin 1) * 1024 + 1 * (y 0).val = (y 0).val; omega

/-- An index of the result array lies in point t's slab iff, on each axis, its coordinate lies in the slab's range. -/
theorem mem_slab (t : Fin cfg0.N) (i : S32x1024x1024.Idx) :
    i ∈ ((cfg0.win 5).blk t).view.set ↔ ∀ a : Fin 3, win0_5.index t a * S1x1024x1024.size a ≤ (i a).val
      ∧ (i a).val < win0_5.index t a * S1x1024x1024.size a + S1x1024x1024.size a := by
  show i ∈ ((View.whole main_v0).slice (win0_5.rect t)).set ↔ _
  rw [View.set_slice_whole, Rect.mem_set_unit]
  exact Iff.rfl

/-- The 32 slabs tile the array: index (b, s, o) lies in the slab of point b, which writes back. -/
theorem covered (i : S32x1024x1024.Idx) :
    ∃ t : Fin cfg0.N, (cfg0.win 5).flush t = true ∧ i ∈ ((cfg0.win 5).blk t).view.set := by
  have hi0 : (i 0).val < 32 := (i 0).isLt
  have hi1 : (i 1).val < 1024 := (i 1).isLt
  have hi2 : (i 2).val < 1024 := (i 2).isLt
  refine ⟨⟨(i 0).val, Nat.lt_of_lt_of_eq hi0 N_0.symm⟩, flush0_5 _, ?_⟩
  obtain ⟨-, -, -, -, -, -, -, -, -, i50, i51, i52⟩ := slab_index ⟨(i 0).val, Nat.lt_of_lt_of_eq hi0 N_0.symm⟩
  have e0 : win0_5.index ⟨(i 0).val, Nat.lt_of_lt_of_eq hi0 N_0.symm⟩ (0 : Fin 3) = (i 0).val := i50
  rw [mem_slab]
  intro a
  match a with
  | ⟨0, _⟩ =>
    show win0_5.index ⟨(i 0).val, Nat.lt_of_lt_of_eq hi0 N_0.symm⟩ (0 : Fin 3) * 1 ≤ (i 0).val
      ∧ (i 0).val < win0_5.index ⟨(i 0).val, Nat.lt_of_lt_of_eq hi0 N_0.symm⟩ (0 : Fin 3) * 1 + 1
    omega
  | ⟨1, _⟩ =>
    show win0_5.index ⟨(i 0).val, Nat.lt_of_lt_of_eq hi0 N_0.symm⟩ (1 : Fin 3) * 1024 ≤ (i 1).val
      ∧ (i 1).val < win0_5.index ⟨(i 0).val, Nat.lt_of_lt_of_eq hi0 N_0.symm⟩ (1 : Fin 3) * 1024 + 1024
    omega
  | ⟨2, _⟩ =>
    show win0_5.index ⟨(i 0).val, Nat.lt_of_lt_of_eq hi0 N_0.symm⟩ (2 : Fin 3) * 1024 ≤ (i 2).val
      ∧ (i 2).val < win0_5.index ⟨(i 0).val, Nat.lt_of_lt_of_eq hi0 N_0.symm⟩ (2 : Fin 3) * 1024 + 1024
    omega

/-- After the run the result array is the specification's array of the arguments. -/
theorem final (c : Dev nD) : (dats m 0 c).arrAt 5 cfg0.N = spec m c :=
  (dats m 0 c).arrAt_eq_of_cover 5 (spec m c) (fun t _ => flushed_eq m c t) covered

/-- The kernel's run, with its result named: every weakly fair execution terminates with the result array at the
    specification's array of the argument arrays, and the arguments as they were. -/
theorem run : θ_run defs (onTc (τ := τ) (main (F := Ideal))) ⟨m, fun _ => 0, ρ⟩ fun r => ∀ c : Dev nD,
      r.2.mem ((c : Thread nD τ).loc main_v0) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final m c), (h c).2⟩) (Value.run_blocks m ρ)

end Cert.KernelIdeal.Slabs

end
-- ==== Proof.MlpReference.lean ====
/-
  The reference program's result is the perceptron of the specification.

  The reference first builds, for every batch item b and position s, the row Σ_{q < 1} 1 · rep[b, q, r] — a product of a
  column of ones [32, 1024, 1] with the representation [32, 1, 1024] over an axis of extent ONE — which is rep[b, 0, r]
  itself: a sum with one term, and 1 · x = x on every extended real, the infinities included. The rest is the
  specification read stage by stage: the product with the first weight matrix's transpose, the bias, the maximum with
  zero, the product with the second weight matrix's transpose, the bias. No step uses that the inputs are finite.
-/
import proofs.«169197_j14894946583396_1_alg».proof.Proof.Gen.ReferenceIdeal.Read
import proofs.«169197_j14894946583396_1_alg».proof.Proof.MlpSpec

noncomputable section

namespace Cert.ReferenceIdeal.RefValue

open Cert.ReferenceIdeal Cert.ReferenceIdeal.Gen Cert.ReferenceIdeal.Read Idealize.ShloMosaic Idealize.ShloMosaic.ValueIdx

/-- The word of the single-precision number 1.0 denotes the extended real 1. -/
theorem ofBits_one_f32 : Ideal.ofBits .f32 0x3F800000#32 = 1 := by
  simp [Ideal.ofBits, Ideal.ieee, -EReal.coe_mul]; norm_num

/-- The reference's last stage, as a function of the five arrays it reads, is the specification's result array: entry
    (b, s, o) on both sides is Σ_h max (Σ_r rep[b, 0, r] · W1[h, r] + b1[h]) 0 · W2[o, h] + b2[o]. -/
theorem result_eq (x0 : (⟨S32x1x1024, .f32⟩ : BufTy).Contents (Elt Ideal)) (x2 : (⟨S512x1024, .f32⟩ : BufTy).Contents (Elt Ideal))
    (x3 : (⟨S512, .f32⟩ : BufTy).Contents (Elt Ideal)) (x4 : (⟨S1024x512, .f32⟩ : BufTy).Contents (Elt Ideal))
    (x5 : (⟨S1024, .f32⟩ : BufTy).Contents (Elt Ideal)) :
    val_main_v10 (F := Ideal) x0 x2 x3 x4 x5 = Cert.DenseMlp.mlp x0 x2 x3 x4 x5 := by
  funext i
  obtain ⟨b, s, o, rfl⟩ : ∃ (b : Fin 32) (s o : Fin 1024), i = ix3 b s o := ⟨i 0, i 1, i 2, eq_ix3 i⟩
  rw [Cert.DenseMlp.mlp_ix3]
  simp only [val_main_v10_apply, val_main_v7_apply, val_main_v6_apply, val_main_v5_apply, val_main_v2_apply, val_main_v1_apply,
    val_main_v0_apply, val_main_cst_apply, val_main_v4_apply, val_main_v3_apply, val_main_call0_v0_apply,
    val_main_call0_cst_apply, val_main_v9_apply, val_main_v8_apply]
  -- where each stage reads its operands, for the entry (b, s, o), hidden unit h, input r and the unit axis's q
  have rep_at : ∀ (h : Fin 512) (r : Fin 1024) (q : Fin 1),
      ridx_main_v1 (lidx_main_v2 (lidx_main_v7 (ix3 b s o) h) r) q = ix3 b q r :=
    fun _ _ _ => funext fun a => Fin.ext (by match a with | ⟨0, _⟩ => rfl | ⟨1, _⟩ => rfl | ⟨2, _⟩ => rfl)
  have w1_at : ∀ (h : Fin 512) (r : Fin 1024), ridx_main_v2 (lidx_main_v7 (ix3 b s o) h) r = ix2 h r :=
    fun _ _ => funext fun a => Fin.ext (by match a with | ⟨0, _⟩ => rfl | ⟨1, _⟩ => rfl)
  have b1_at : ∀ h : Fin 512, idx_main_v3 (idx_main_v4 (lidx_main_v7 (ix3 b s o) h)) = ix1 h :=
    fun _ => funext fun a => Fin.ext (by match a with | ⟨0, _⟩ => rfl)
  have w2_at : ∀ h : Fin 512, ridx_main_v7 (ix3 b s o) h = ix2 o h :=
    fun _ => funext fun a => Fin.ext (by match a with | ⟨0, _⟩ => rfl | ⟨1, _⟩ => rfl)
  have b2_at : idx_main_v8 (idx_main_v9 (ix3 b s o)) = ix1 o :=
    funext fun a => Fin.ext (by match a with | ⟨0, _⟩ => rfl)
  simp only [rep_at, w1_at, b1_at, w2_at, b2_at, Fin.sum_univ_one, Ideal.ofBits_def, ofBits_one_f32, Ideal.ofBits_zero_f32, one_mul,
    Ideal.addf_def, Ideal.maximumf_def, Cert.DenseMlp.out, Cert.DenseMlp.hidden]

end Cert.ReferenceIdeal.RefValue

end
-- ==== Proof.lean ====
/- A two-layer perceptron on one representation vector per batch item: the kernel and its reference compute the same
   array over the extended reals.

   Arguments: rep [32, 1, 1024], a [32, 1024, 1] array of which only the shape matters, W1 [512, 1024], b1 [512],
   W2 [1024, 512], b2 [1024]. Result [32, 1024, 1024], with

       result[b, s, o] = Σ_h max (Σ_r rep[b, 0, r] · W1[h, r] + b1[h]) 0 · W2[o, h] + b2[o]

   (Proof/MlpSpec.lean), the same at every position s.

   The kernel visits the 32 batch items one grid point each. At point b it copies row b of rep to all 1024 positions,
   multiplies by W1 transposed into a zero accumulator, adds b1, takes the maximum with zero, multiplies by W2
   transposed into a zero accumulator, adds b2, and writes slab b of the result; between the steps it narrows values to
   a shorter float format, which over the extended reals changes nothing. Proof/MlpBody.lean reads the stored slab at an
   entry (each product with a transposed right operand is a plain sum: Proof/LibMatmulTransposedRhs.lean), and
   Proof/MlpSlabs.lean shows that point b writes slab b of the specification's array, that the 32 slabs tile the array,
   and hence that the run ends with the result array at the specification's array of the arguments.

   The reference builds the [32, 1024, 1024] input as the product of a column of ones with rep over an axis of extent
   one — a one-term sum of 1 · x, which is x on every extended real — and then applies the same two layers, its
   rectifier being the maximum with a zero array. Proof/MlpReference.lean reads its result stage by stage to the same
   specification.

   Nothing in the comparison moves a factor across a sum or cancels, so it holds at the infinities too and the
   finiteness of the inputs is not used. The three frame claims are the programs' runs with the results forgotten; the
   idealized kernel is the kernel's own text read over the extended reals, so nothing is owed for the passage between them. -/
import proofs.«169197_j14894946583396_1_alg».proof.Defs
import proofs.«169197_j14894946583396_1_alg».proof.Proof.Gen.Kernel
import proofs.«169197_j14894946583396_1_alg».proof.Proof.Gen.Kernel.Frame
import proofs.«169197_j14894946583396_1_alg».proof.Proof.Gen.KernelIdeal
import proofs.«169197_j14894946583396_1_alg».proof.Proof.Gen.KernelIdeal.Frame
import proofs.«169197_j14894946583396_1_alg».proof.Proof.Gen.KernelIdeal.Value
import proofs.«169197_j14894946583396_1_alg».proof.Proof.Gen.ReferenceIdeal
import proofs.«169197_j14894946583396_1_alg».proof.Proof.Gen.ReferenceIdeal.Run
import proofs.«169197_j14894946583396_1_alg».proof.Proof.Gen.ReferenceIdeal.Read
import proofs.«169197_j14894946583396_1_alg».proof.Proof.Gen.Pre_finite_inputs
import proofs.«169197_j14894946583396_1_alg».proof.Proof.MlpSlabs
import proofs.«169197_j14894946583396_1_alg».proof.Proof.MlpReference
import Idealize.ShloMosaic.Adequacy
import Idealize.ShloMosaic.Init

noncomputable section

namespace Cert.Proof

open Idealize.ShloMosaic Idealize.ShloMosaic.TcCoe Idealize.SL.Sem

/-- The kernel at the word level runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's run with its result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the specification's array of those arguments:
    the kernel by its slabs, the reference stage by stage. -/
theorem algebraic : Cert.algebraic_KernelIdeal_ReferenceIdeal := by
  intro m ρ m' ρ' _ hagree
  refine ⟨fun c => Cert.KernelIdeal.Slabs.spec m c, Cert.KernelIdeal.Slabs.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.result_eq]
  obtain ⟨h0, -, h2, h3, h4, h5⟩ := hagree c
  rw [h0, h2, h3, h4, h5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
